-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x16x32x32x64 : Shape := ⟨6, ![2, 8, 16, 32, 32, 64]⟩
abbrev S_ : Shape := ⟨0, ![]⟩

class Facts : Prop where
  bcast_S_S2x8x16x32x32x64 : S_.BroadcastsInDim S2x8x16x32x32x64 (![] : Fin 0 → Fin S2x8x16x32x32x64.rank)
  reducesTo_S2x8x16x32x32x64_S_d0_1_2_3_4_5 : S2x8x16x32x32x64.ReducesTo [0, 1, 2, 3, 4, 5] S_
  h_S_ : 0 < S_.numel

variable [Facts]

def fn {F : FTy → Type} [FloatOps F] (main_arg0 : FVec F S2x8x16x32x32x64 .f32) (main_arg1 : FVec F S2x8x16x32x32x64 .f32) (main_arg2 : FVec F S2x8x16x32x32x64 .f32) : IVec S_ 1 :=
  let main_v0 : FVec F S2x8x16x32x32x64 .f32 := Host.absf main_arg0
  let main_cst : FVec F S_ .f32 := constant S_ .f32 0x7F800000#32
  let main_v1 : FVec F S2x8x16x32x32x64 .f32 := broadcastInDim S2x8x16x32x32x64 ![] bcast_S_S2x8x16x32x32x64 main_cst
  let main_v2 : IVec S2x8x16x32x32x64 1 := cmpf .olt main_v0 main_v1
  let main_c : IVec S_ 1 := constantI S_ 1 1#1
  let main_v3 : IVec S_ 1 := (fun x v => Host.reduce IntOp.andi x v reducesTo_S2x8x16x32x32x64_S_d0_1_2_3_4_5 h_S_) main_v2 main_c
  let main_v4 : FVec F S2x8x16x32x32x64 .f32 := Host.absf main_arg1
  let main_cst_0 : FVec F S_ .f32 := constant S_ .f32 0x7F800000#32
  let main_v5 : FVec F S2x8x16x32x32x64 .f32 := broadcastInDim S2x8x16x32x32x64 ![] bcast_S_S2x8x16x32x32x64 main_cst_0
  let main_v6 : IVec S2x8x16x32x32x64 1 := cmpf .olt main_v4 main_v5
  let main_c_1 : IVec S_ 1 := constantI S_ 1 1#1
  let main_v7 : IVec S_ 1 := (fun x v => Host.reduce IntOp.andi x v reducesTo_S2x8x16x32x32x64_S_d0_1_2_3_4_5 h_S_) main_v6 main_c_1
  let main_v8 : IVec S_ 1 := andi main_v3 main_v7
  let main_v9 : FVec F S2x8x16x32x32x64 .f32 := Host.absf main_arg2
  let main_cst_2 : FVec F S_ .f32 := constant S_ .f32 0x7F800000#32
  let main_v10 : FVec F S2x8x16x32x32x64 .f32 := broadcastInDim S2x8x16x32x32x64 ![] bcast_S_S2x8x16x32x32x64 main_cst_2
  let main_v11 : IVec S2x8x16x32x32x64 1 := cmpf .olt main_v9 main_v10
  let main_c_3 : IVec S_ 1 := constantI S_ 1 1#1
  let main_v12 : IVec S_ 1 := (fun x v => Host.reduce IntOp.andi x v reducesTo_S2x8x16x32x32x64_S_d0_1_2_3_4_5 h_S_) main_v11 main_c_3
  let main_v13 : IVec S_ 1 := andi main_v8 main_v12
  main_v13
-- ==== Kernel.lean ====
abbrev S2x8x16x32x32x64 : Shape := ⟨6, ![2, 8, 16, 32, 32, 64]⟩
abbrev S8192x32x64 : Shape := ⟨3, ![8192, 32, 64]⟩
abbrev S128x32x64 : Shape := ⟨3, ![128, 32, 64]⟩
abbrev S128x32x32 : Shape := ⟨3, ![128, 32, 32]⟩
abbrev S128x32 : Shape := ⟨2, ![128, 32]⟩
abbrev S128x32x1 : Shape := ⟨3, ![128, 32, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x8x16x32x32x64, .f32⟩
  | .hbm, ⟨1, _⟩ => ⟨S2x8x16x32x32x64, .f32⟩
  | .hbm, ⟨2, _⟩ => ⟨S2x8x16x32x32x64, .f32⟩
  | .hbm, ⟨3, _⟩ => ⟨S2x8x16x32x32x64, .f32⟩
  | .hbm, ⟨4, _⟩ => ⟨S2x8x16x32x32x64, .f32⟩
  | .hbm, ⟨5, _⟩ => ⟨S2x8x16x32x32x64, .f32⟩
  | .hbm, ⟨6, _⟩ => ⟨S8192x32x64, .f32⟩
  | .hbm, ⟨7, _⟩ => ⟨S8192x32x64, .f32⟩
  | .hbm, ⟨8, _⟩ => ⟨S8192x32x64, .f32⟩
  | .hbm, ⟨9, _⟩ => ⟨S8192x32x64, .f32⟩
  | .hbm, ⟨10, _⟩ => ⟨S2x8x16x32x32x64, .f32⟩
  | .hbm, ⟨11, _⟩ => ⟨S2x8x16x32x32x64, .f32⟩
  | .local _ .vmem, ⟨0, _⟩ => ⟨S128x32x64, .f32⟩
  | .local _ .vmem, ⟨1, _⟩ => ⟨S128x32x64, .f32⟩
  | .local _ .vmem, ⟨2, _⟩ => ⟨S128x32x64, .f32⟩
  | .local _ .vmem, ⟨3, _⟩ => ⟨S128x32x64, .f32⟩
  | .local _ .vmem, ⟨4, _⟩ => ⟨S128x32x64, .f32⟩
  | .local _ .vmem, ⟨5, _⟩ => ⟨S128x32x64, .f32⟩
  | .local _ .vmem, ⟨6, _⟩ => ⟨S128x32x64, .f32⟩
  | .local _ .vmem, ⟨7, _⟩ => ⟨S128x32x64, .f32⟩
  | _, _ => ⟨S2x8x16x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x8x16x32x32x64_S2x8x16x32x32x64_0_1_2_4_3_5 : S2x8x16x32x32x64.Transposes [0, 1, 2, 4, 3, 5] S2x8x16x32x32x64
  shapeCasts_S2x8x16x32x32x64_S8192x32x64 : S2x8x16x32x32x64.ShapeCasts S8192x32x64
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64 : S128x32x64.ShapeCasts S128x32x64
  bitsLt_bf16_f32 : FTy.bits .bf16 < FTy.bits .f32
  reduces_S128x32x32_S128x32 : S128x32x32.Reduces [2] S128x32
  shapeCasts_S128x32_S128x32x1 : S128x32.ShapeCasts S128x32x1
  broadcasts_S128x32x1_S128x32x32 : S128x32x1.Broadcasts S128x32x32
  shapeCasts_S8192x32x64_S2x8x16x32x32x64 : S8192x32x64.ShapeCasts S2x8x16x32x32x64
  dot_S128x32x64_S128x32x64_S128x32x32_2_2_1_1_0_0_wf : DotDims.WF S128x32x64 S128x32x64 S128x32x32 [2] [2] [1] [1] [0] [0]
  dot_S128x32x32_S128x32x64_S128x32x64_2_1_1_2_0_0_wf : DotDims.WF S128x32x32 S128x32x64 S128x32x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S8192x32x64.size a
  hwx0_0 : ∀ i : grid0.Coords, EltTy.bits .f32 = 32 ∨ (Rect.block (s := S8192x32x64) S128x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x64.size a ≤ S8192x32x64.size a
  hwx0_1 : ∀ i : grid0.Coords, EltTy.bits .f32 = 32 ∨ (Rect.block (s := S8192x32x64) S128x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x64.size a ≤ S8192x32x64.size a
  hwx0_2 : ∀ i : grid0.Coords, EltTy.bits .f32 = 32 ∨ (Rect.block (s := S8192x32x64) S128x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32x64.size a ≤ S8192x32x64.size a
  hwx0_3 : ∀ i : grid0.Coords, EltTy.bits .f32 = 32 ∨ (Rect.block (s := S8192x32x64) S128x32x64.size (cc0_transform_3 i) (hinb0_3 i)).WholeWords (EltTy.packing .f32)

variable [Facts₀]

def dot_S128x32x64_S128x32x64_S128x32x32_2_2_1_1_0_0 : DotDims S128x32x64 S128x32x64 S128x32x32 where
  lhsContracting := [2]
  rhsContracting := [2]
  lhsNonContracting := [1]
  rhsNonContracting := [1]
  lhsBatch := [0]
  rhsBatch := [0]
  wf := dot_S128x32x64_S128x32x64_S128x32x32_2_2_1_1_0_0_wf
def dot_S128x32x32_S128x32x64_S128x32x64_2_1_1_2_0_0 : DotDims S128x32x32 S128x32x64 S128x32x64 where
  lhsContracting := [2]
  rhsContracting := [1]
  lhsNonContracting := [1]
  rhsNonContracting := [2]
  lhsBatch := [0]
  rhsBatch := [0]
  wf := dot_S128x32x32_S128x32x64_S128x32x64_2_1_1_2_0_0_wf

abbrev win0_0 : Pipeline.Window sig grid0 :=
  Pipeline.Window.ofSpec (Memref.whole main_v3) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x32x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x16x32x32x64 : Shape := ⟨6, ![2, 8, 16, 32, 32, 64]⟩
abbrev S8192x32x64 : Shape := ⟨3, ![8192, 32, 64]⟩
abbrev S_ : Shape := ⟨0, ![]⟩
abbrev S8192x32x32 : Shape := ⟨3, ![8192, 32, 32]⟩
abbrev S8192x32 : Shape := ⟨2, ![8192, 32]⟩
abbrev S8192x32x1 : Shape := ⟨3, ![8192, 32, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x8x16x32x32x64, .f32⟩
  | .hbm, ⟨1, _⟩ => ⟨S2x8x16x32x32x64, .f32⟩
  | .hbm, ⟨2, _⟩ => ⟨S2x8x16x32x32x64, .f32⟩
  | .hbm, ⟨3, _⟩ => ⟨S2x8x16x32x32x64, .f32⟩
  | .hbm, ⟨4, _⟩ => ⟨S2x8x16x32x32x64, .f32⟩
  | .hbm, ⟨5, _⟩ => ⟨S2x8x16x32x32x64, .f32⟩
  | .hbm, ⟨6, _⟩ => ⟨S8192x32x64, .f32⟩
  | .hbm, ⟨7, _⟩ => ⟨S8192x32x64, .f32⟩
  | .hbm, ⟨8, _⟩ => ⟨S8192x32x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x32x32, .f32⟩
  | .hbm, ⟨14, _⟩ => ⟨S8192x32x32, .f32⟩
  | .hbm, ⟨15, _⟩ => ⟨S8192x32x32, .f32⟩
  | .hbm, ⟨16, _⟩ => ⟨S_, .f32⟩
  | .hbm, ⟨17, _⟩ => ⟨S8192x32, .f32⟩
  | .hbm, ⟨18, _⟩ => ⟨S_, .f32⟩
  | .hbm, ⟨19, _⟩ => ⟨S8192x32, .f32⟩
  | .hbm, ⟨20, _⟩ => ⟨S8192x32, .f32⟩
  | .hbm, ⟨21, _⟩ => ⟨S8192x32x1, .f32⟩
  | .hbm, ⟨22, _⟩ => ⟨S8192x32x32, .f32⟩
  | .hbm, ⟨23, _⟩ => ⟨S8192x32x32, .f32⟩
  | .hbm, ⟨24, _⟩ => ⟨S8192x32x32, .f32⟩
  | .hbm, ⟨25, _⟩ => ⟨S_, .f32⟩
  | .hbm, ⟨26, _⟩ => ⟨S8192x32, .f32⟩
  | .hbm, ⟨27, _⟩ => ⟨S8192x32x1, .f32⟩
  | .hbm, ⟨28, _⟩ => ⟨S8192x32x32, .f32⟩
  | .hbm, ⟨29, _⟩ => ⟨S8192x32x32, .f32⟩
  | .hbm, ⟨30, _⟩ => ⟨S8192x32x64, .f32⟩
  | .hbm, ⟨31, _⟩ => ⟨S2x8x16x32x32x64, .f32⟩
  | .hbm, ⟨32, _⟩ => ⟨S2x8x16x32x32x64, .f32⟩
  | _, _ => ⟨S2x8x16x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  transposes_S2x8x16x32x32x64_S2x8x16x32x32x64_0_1_2_4_3_5 : S2x8x16x32x32x64.Transposes [0, 1, 2, 4, 3, 5] S2x8x16x32x32x64
  shapeCasts_S2x8x16x32x32x64_S8192x32x64 : S2x8x16x32x32x64.ShapeCasts S8192x32x64
  bcast_S_S8192x32x32 : S_.BroadcastsInDim S8192x32x32 (![] : Fin 0 → Fin S8192x32x32.rank)
  reducesTo_S8192x32x32_S8192x32_d2 : S8192x32x32.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x32_0_1_2 : S8192x32x1.BroadcastsInDim S8192x32x32 (![0, 1, 2] : Fin 3 → Fin S8192x32x32.rank)
  shapeCasts_S8192x32x64_S2x8x16x32x32x64 : S8192x32x64.ShapeCasts S2x8x16x32x32x64
  dot_S8192x32x64_S8192x32x64_S8192x32x32_2_2_1_1_0_0_wf : DotDims.WF S8192x32x64 S8192x32x64 S8192x32x32 [2] [2] [1] [1] [0] [0]
  dot_S8192x32x32_S8192x32x64_S8192x32x64_2_1_1_2_0_0_wf : DotDims.WF S8192x32x32 S8192x32x64 S8192x32x64 [2] [1] [1] [2] [0] [0]

variable [Facts₀]

def dot_S8192x32x64_S8192x32x64_S8192x32x32_2_2_1_1_0_0 : DotDims S8192x32x64 S8192x32x64 S8192x32x32 where
  lhsContracting := [2]
  rhsContracting := [2]
  lhsNonContracting := [1]
  rhsNonContracting := [1]
  lhsBatch := [0]
  rhsBatch := [0]
  wf := dot_S8192x32x64_S8192x32x64_S8192x32x32_2_2_1_1_0_0_wf
def dot_S8192x32x32_S8192x32x64_S8192x32x64_2_1_1_2_0_0 : DotDims S8192x32x32 S8192x32x64 S8192x32x64 where
  lhsContracting := [2]
  rhsContracting := [1]
  lhsNonContracting := [1]
  rhsNonContracting := [2]
  lhsBatch := [0]
  rhsBatch := [0]
  wf := dot_S8192x32x32_S8192x32x64_S8192x32x64_2_1_1_2_0_0_wf

class Facts : Prop extends Facts₀ where

variable [Facts]
-- ==== Proof.Spec.lean ====
/-
  Axial attention, as one function of the arrays.

  After the host has moved the attended axis next to the feature axis and folded the other axes into one batch
  axis, each of the three inputs is a [B, 32, 64] array, and every batch `b` is an independent attention problem over
  32 positions with 64 features:

    score l m  = (∑ c, q l c · k m c) · 1/8                  (1/8 = 1/√64)
    rowMax l   = max (-∞) (the maximum over m of score l m, from -∞)
    expo l m   = exp (score l m - rowMax l)
    weight l m = expo l m / ∑ m', expo l m'
    out l c    = ∑ m, weight l m · v m c

  over the extended reals, with the operations' conventions at the infinities being those of the ideal instance.
  The formula never mixes two batches, so it is stated for ONE batch (`attnAt`, over the three [32, 64] matrices of a
  batch) and lifted to an array of any number of batches (`attn`). Both programs compute this function: the kernel
  128 batches at a time, the reference all 8192 at once.
-/
import Idealize.ShloMosaic.PureOps.Ideal
import Idealize.ShloMosaic.PureOps.Ideal.Laws
import Idealize.ShloMosaic.Lib.ValueIdx

noncomputable section

open scoped BigOperators

namespace Cert.AxialAttn

open Idealize.ShloMosaic Idealize.ShloMosaic.ValueIdx

/-- The scale both programs multiply the scores by: the f32 word of 0.125. -/
def scale : EReal := Ideal.ofBits .f32 0x3E000000#32

/-- The value both maxima start from: the f32 word of -∞. -/
def negInf : EReal := Ideal.ofBits .f32 0xFF800000#32

/-- One batch's matrices. -/
abbrev Mat := Fin 32 → Fin 64 → EReal

/-- The scaled score of query position `l` against key position `m`. -/
def score (q k : Mat) (l m : Fin 32) : EReal := (∑ c : Fin 64, q l c * k m c) * scale

/-- The row's maximum, as softmax takes it: the maximum over the keys from -∞, then once more against -∞. -/
def rowMax (q k : Mat) (l : Fin 32) : EReal :=
  max negInf ((Finset.univ : Finset (Fin 32)).fold max negInf (fun m => score q k l m))

/-- The shifted exponential. -/
def expo (q k : Mat) (l m : Fin 32) : EReal := Ideal.exp (score q k l m - rowMax q k l)

/-- The row's normaliser. -/
def denom (q k : Mat) (l : Fin 32) : EReal := ∑ m : Fin 32, expo q k l m

/-- The attention weight. -/
def weight (q k : Mat) (l m : Fin 32) : EReal := Ideal.div (expo q k l m) (denom q k l)

/-- One batch's output at position `l`, feature `c`. -/
def attnAt (q k v : Mat) (l : Fin 32) (c : Fin 64) : EReal := ∑ m : Fin 32, weight q k l m * v m c

/-- Batch `b` of a [B, 32, 64] array, as a matrix. -/
def batchOf {B : Nat} (X : (⟨3, ![B, 32, 64]⟩ : Shape).Idx → EReal) (b : Fin B) : Mat := fun l c => X (ix3 b l c)

/-- Attention over every batch of three [B, 32, 64] arrays. -/
def attn {B : Nat} (Q K V : (⟨3, ![B, 32, 64]⟩ : Shape).Idx → EReal) : (⟨3, ![B, 32, 64]⟩ : Shape).Idx → EReal :=
  fun i => attnAt (batchOf Q (i 0)) (batchOf K (i 0)) (batchOf V (i 0)) (i 1) (i 2)

theorem attn_apply {B : Nat} (Q K V : (⟨3, ![B, 32, 64]⟩ : Shape).Idx → EReal) (b : Fin B) (l : Fin 32) (c : Fin 64) :
    attn Q K V (ix3 b l c) = attnAt (batchOf Q b) (batchOf K b) (batchOf V b) l c := rfl

/-! ## The scale

The kernel carries the scale as the literal 0.125; the reference computes `1 / √64` on the host. Over the reals
`√64 = 8` exactly, so the quotient is `1/8`, the number the literal's word denotes. -/

theorem ofBits_one : Ideal.ofBits .f32 0x3F800000#32 = ((1 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num, Real.sqrt_sq (by norm_num)]

/-- `1 / √64`, computed with the ideal operations on the words of 1.0 and 64.0, is the word of 0.125. -/
theorem scale_eq :
    Ideal.div (Ideal.ofBits .f32 0x3F800000#32) (Ideal.sqrt (Ideal.ofBits .f32 0x42800000#32)) = scale := by
  unfold scale
  rw [ofBits_one, ofBits_64, ofBits_eighth, Ideal.sqrt_coe, if_neg (by norm_num), sqrt_64,
    Ideal.div_coe (by norm_num : (8 : ℝ) ≠ 0), ← EReal.coe_mul, one_mul]

end Cert.AxialAttn

end
-- ==== Proof.KernelBlock.lean ====
/-
  What the kernel body computes on one block of 128 batches, read at an index.

  The body's one store writes, from the three loaded [128, 32, 64] blocks, the value of a chain of vector operations:
  a batched product of the query and key blocks over the feature axis, the scale, the row maximum over the keys, the
  shifted exponential, its row sum, the quotient, and a batched product with the value block over the key axis.
  Read at the block index (b, l, c) that value is the attention formula of batch `b` of the three blocks
  (`Cert.AxialAttn.attnAt`): at the ideal instance the narrowing to bf16 is the identity, each matrix product into a
  zero accumulator is the plain sum over its one contracted axis, the lane maximum is the fold of `max` over the keys
  and the lane sum the sum over them.
-/
import proofs.«119804_j42975442764618_1_alg».proof.Proof.Gen.KernelIdeal.Skeleton
import proofs.«119804_j42975442764618_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.AxialAttn

/-! ## The stages of the body's value -/

/-- The scaled scores of the block: the batched product of queries and keys over the features, times 1/8. -/
def scores (x0 x1 : Vec Ideal S128x32x64 .f32) : FVec Ideal S128x32x32 .f32 :=
  mulf (matmul dot_S128x32x64_S128x32x64_S128x32x32_2_2_1_1_0_0 none
      (truncf .bf16 (shapeCast S128x32x64 x0 shapeCasts_S128x32x64_S128x32x64) bitsLt_bf16_f32)
      (truncf .bf16 (shapeCast S128x32x64 x1 shapeCasts_S128x32x64_S128x32x64) bitsLt_bf16_f32)
      (constant S128x32x32 .f32 0x00000000#32))
    (broadcast S128x32x32 (Scalar.ofBits .f32 0x3E000000#32))

/-- Each row's maximum over the keys. -/
def rowMaxes (x0 x1 : Vec Ideal S128x32x64 .f32) : FVec Ideal S128x32 .f32 :=
  maximumf (broadcast S128x32 (Scalar.ofBits .f32 0xFF800000#32))
    (multiReduction .maximumf [2] S128x32 (scores x0 x1) 0xFF800000#32 reduces_S128x32x32_S128x32 (.inl rfl) rfl)

/-- The exponentials of the scores less their row's maximum. -/
def expos (x0 x1 : Vec Ideal S128x32x64 .f32) : FVec Ideal S128x32x32 .f32 :=
  exp (subf (scores x0 x1)
    (broadcastTo S128x32x32 (shapeCast S128x32x1 (rowMaxes x0 x1) shapeCasts_S128x32_S128x32x1) broadcasts_S128x32x1_S128x32x32))

/-- Each row's sum of exponentials. -/
def rowSums (x0 x1 : Vec Ideal S128x32x64 .f32) : FVec Ideal S128x32 .f32 :=
  multiReduction .add [2] S128x32 (expos x0 x1) 0x00000000#32 reduces_S128x32x32_S128x32 (.inl rfl) rfl

/-- The attention weights, narrowed for the second product. -/
def weights (x0 x1 : Vec Ideal S128x32x64 .f32) : FVec Ideal S128x32x32 .bf16 :=
  truncf .bf16 (divf (expos x0 x1)
    (broadcastTo S128x32x32 (shapeCast S128x32x1 (rowSums x0 x1) shapeCasts_S128x32_S128x32x1) broadcasts_S128x32x1_S128x32x32))
    bitsLt_bf16_f32

/-- The body's stored value is the batched product of the weights with the value block. -/
theorem pay_eq (x0 x1 x2 : Vec Ideal S128x32x64 .f32) :
    k0_pay1 (F := Ideal) x0 x1 x2
      = matmul dot_S128x32x32_S128x32x64_S128x32x64_2_1_1_2_0_0 none (weights x0 x1)
          (truncf .bf16 (shapeCast S128x32x64 x2 shapeCasts_S128x32x64_S128x32x64) bitsLt_bf16_f32)
          (constant S128x32x64 .f32 0x00000000#32) := rfl

/-! ## The two batched products as sums -/

theorem lhs_qk_0 (i : S128x32x32.Idx) (q : dot_S128x32x64_S128x32x64_S128x32x32_2_2_1_1_0_0.contr.Idx) :
    (dot_S128x32x64_S128x32x64_S128x32x32_2_2_1_1_0_0.lhsIdx i q 0).val = (i 0).val := by
  unfold DotDims.lhsIdx
  rw [dif_pos (show (0 : Fin S128x32x64.rank) ∈ dot_S128x32x64_S128x32x64_S128x32x32_2_2_1_1_0_0.lhsBatch by decide)]
  rfl
theorem lhs_qk_1 (i : S128x32x32.Idx) (q : dot_S128x32x64_S128x32x64_S128x32x32_2_2_1_1_0_0.contr.Idx) :
    (dot_S128x32x64_S128x32x64_S128x32x32_2_2_1_1_0_0.lhsIdx i q 1).val = (i 1).val := by
  unfold DotDims.lhsIdx
  rw [dif_neg (show ¬(1 : Fin S128x32x64.rank) ∈ dot_S128x32x64_S128x32x64_S128x32x32_2_2_1_1_0_0.lhsBatch by decide), dif_pos (show (1 : Fin S128x32x64.rank) ∈ dot_S128x32x64_S128x32x64_S128x32x32_2_2_1_1_0_0.lhsNonContracting by decide)]
  rfl
theorem lhs_qk_2 (i : S128x32x32.Idx) (q : dot_S128x32x64_S128x32x64_S128x32x32_2_2_1_1_0_0.contr.Idx) :
    (dot_S128x32x64_S128x32x64_S128x32x32_2_2_1_1_0_0.lhsIdx i q 2).val = (q ⟨0, by decide⟩).val :=
  dot_S128x32x64_S128x32x64_S128x32x32_2_2_1_1_0_0.lhsIdx_val_of_single rfl i q
theorem rhs_qk_0 (i : S128x32x32.Idx) (q : dot_S128x32x64_S128x32x64_S128x32x32_2_2_1_1_0_0.contr.Idx) :
    (dot_S128x32x64_S128x32x64_S128x32x32_2_2_1_1_0_0.rhsIdx i q 0).val = (i 0).val := by
  unfold DotDims.rhsIdx
  rw [dif_pos (show (0 : Fin S128x32x64.rank) ∈ dot_S128x32x64_S128x32x64_S128x32x32_2_2_1_1_0_0.rhsBatch by decide)]
  rfl
theorem rhs_qk_1 (i : S128x32x32.Idx) (q : dot_S128x32x64_S128x32x64_S128x32x32_2_2_1_1_0_0.contr.Idx) :
    (dot_S128x32x64_S128x32x64_S128x32x32_2_2_1_1_0_0.rhsIdx i q 1).val = (i 2).val := by
  unfold DotDims.rhsIdx
  rw [dif_neg (show ¬(1 : Fin S128x32x64.rank) ∈ dot_S128x32x64_S128x32x64_S128x32x32_2_2_1_1_0_0.rhsBatch by decide), dif_pos (show (1 : Fin S128x32x64.rank) ∈ dot_S128x32x64_S128x32x64_S128x32x32_2_2_1_1_0_0.rhsNonContracting by decide)]
  rfl
theorem rhs_qk_2 (i : S128x32x32.Idx) (q : dot_S128x32x64_S128x32x64_S128x32x32_2_2_1_1_0_0.contr.Idx) :
    (dot_S128x32x64_S128x32x64_S128x32x32_2_2_1_1_0_0.rhsIdx i q 2).val = (q ⟨0, by decide⟩).val :=
  dot_S128x32x64_S128x32x64_S128x32x32_2_2_1_1_0_0.rhsIdx_val_of_single rfl i q

/-- Queries against keys: entry (b, l, m) is the sum over the features of query row l times key row m, in batch b. -/
theorem qk_apply (L R : FVec Ideal S128x32x64 .bf16) (b : Fin 128) (l m : Fin 32) :
    matmul dot_S128x32x64_S128x32x64_S128x32x32_2_2_1_1_0_0 none L R (constant S128x32x32 .f32 0x00000000#32) (ix3 b l m)
      = ∑ c : Fin 64, L (ix3 b l c) * R (ix3 b m c) := by
  simp only [matmul]
  rw [Ideal.matmul_constant_zero_apply, ← Equiv.sum_comp (contrEquiv1 dot_S128x32x64_S128x32x64_S128x32x32_2_2_1_1_0_0 64 rfl rfl).symm]
  refine Finset.sum_congr rfl fun k _ => ?_
  have hk := contrEquiv1_symm_val dot_S128x32x64_S128x32x64_S128x32x32_2_2_1_1_0_0 64 rfl rfl k
  have el : dot_S128x32x64_S128x32x64_S128x32x32_2_2_1_1_0_0.lhsIdx (ix3 b l m) ((contrEquiv1 dot_S128x32x64_S128x32x64_S128x32x32_2_2_1_1_0_0 64 rfl rfl).symm k) = ix3 b l k := funext fun a => Fin.ext (by
    match a with
    | ⟨0, _⟩ => exact lhs_qk_0 _ _
    | ⟨1, _⟩ => exact lhs_qk_1 _ _
    | ⟨2, _⟩ => exact (lhs_qk_2 _ _).trans hk)
  have er : dot_S128x32x64_S128x32x64_S128x32x32_2_2_1_1_0_0.rhsIdx (ix3 b l m) ((contrEquiv1 dot_S128x32x64_S128x32x64_S128x32x32_2_2_1_1_0_0 64 rfl rfl).symm k) = ix3 b m k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_wv_0 (i : S128x32x64.Idx) (q : dot_S128x32x32_S128x32x64_S128x32x64_2_1_1_2_0_0.contr.Idx) :
    (dot_S128x32x32_S128x32x64_S128x32x64_2_1_1_2_0_0.lhsIdx i q 0).val = (i 0).val := by
  unfold DotDims.lhsIdx
  rw [dif_pos (show (0 : Fin S128x32x32.rank) ∈ dot_S128x32x32_S128x32x64_S128x32x64_2_1_1_2_0_0.lhsBatch by decide)]
  rfl
theorem lhs_wv_1 (i : S128x32x64.Idx) (q : dot_S128x32x32_S128x32x64_S128x32x64_2_1_1_2_0_0.contr.Idx) :
    (dot_S128x32x32_S128x32x64_S128x32x64_2_1_1_2_0_0.lhsIdx i q 1).val = (i 1).val := by
  unfold DotDims.lhsIdx
  rw [dif_neg (show ¬(1 : Fin S128x32x32.rank) ∈ dot_S128x32x32_S128x32x64_S128x32x64_2_1_1_2_0_0.lhsBatch by decide), dif_pos (show (1 : Fin S128x32x32.rank) ∈ dot_S128x32x32_S128x32x64_S128x32x64_2_1_1_2_0_0.lhsNonContracting by decide)]
  rfl
theorem lhs_wv_2 (i : S128x32x64.Idx) (q : dot_S128x32x32_S128x32x64_S128x32x64_2_1_1_2_0_0.contr.Idx) :
    (dot_S128x32x32_S128x32x64_S128x32x64_2_1_1_2_0_0.lhsIdx i q 2).val = (q ⟨0, by decide⟩).val :=
  dot_S128x32x32_S128x32x64_S128x32x64_2_1_1_2_0_0.lhsIdx_val_of_single rfl i q
theorem rhs_wv_0 (i : S128x32x64.Idx) (q : dot_S128x32x32_S128x32x64_S128x32x64_2_1_1_2_0_0.contr.Idx) :
    (dot_S128x32x32_S128x32x64_S128x32x64_2_1_1_2_0_0.rhsIdx i q 0).val = (i 0).val := by
  unfold DotDims.rhsIdx
  rw [dif_pos (show (0 : Fin S128x32x64.rank) ∈ dot_S128x32x32_S128x32x64_S128x32x64_2_1_1_2_0_0.rhsBatch by decide)]
  rfl
theorem rhs_wv_1 (i : S128x32x64.Idx) (q : dot_S128x32x32_S128x32x64_S128x32x64_2_1_1_2_0_0.contr.Idx) :
    (dot_S128x32x32_S128x32x64_S128x32x64_2_1_1_2_0_0.rhsIdx i q 1).val = (q ⟨0, by decide⟩).val :=
  dot_S128x32x32_S128x32x64_S128x32x64_2_1_1_2_0_0.rhsIdx_val_of_single rfl i q
theorem rhs_wv_2 (i : S128x32x64.Idx) (q : dot_S128x32x32_S128x32x64_S128x32x64_2_1_1_2_0_0.contr.Idx) :
    (dot_S128x32x32_S128x32x64_S128x32x64_2_1_1_2_0_0.rhsIdx i q 2).val = (i 2).val := by
  unfold DotDims.rhsIdx
  rw [dif_neg (show ¬(2 : Fin S128x32x64.rank) ∈ dot_S128x32x32_S128x32x64_S128x32x64_2_1_1_2_0_0.rhsBatch by decide), dif_pos (show (2 : Fin S128x32x64.rank) ∈ dot_S128x32x32_S128x32x64_S128x32x64_2_1_1_2_0_0.rhsNonContracting by decide)]
  rfl

/-- Weights against values: entry (b, l, c) is the sum over the keys of weight (l, m) times value row m, in batch b. -/
theorem wv_apply (L : FVec Ideal S128x32x32 .bf16) (R : FVec Ideal S128x32x64 .bf16) (b : Fin 128) (l : Fin 32) (c : Fin 64) :
    matmul dot_S128x32x32_S128x32x64_S128x32x64_2_1_1_2_0_0 none L R (constant S128x32x64 .f32 0x00000000#32) (ix3 b l c)
      = ∑ m : Fin 32, L (ix3 b l m) * R (ix3 b m c) := by
  simp only [matmul]
  rw [Ideal.matmul_constant_zero_apply, ← Equiv.sum_comp (contrEquiv1 dot_S128x32x32_S128x32x64_S128x32x64_2_1_1_2_0_0 32 rfl rfl).symm]
  refine Finset.sum_congr rfl fun k _ => ?_
  have hk := contrEquiv1_symm_val dot_S128x32x32_S128x32x64_S128x32x64_2_1_1_2_0_0 32 rfl rfl k
  have el : dot_S128x32x32_S128x32x64_S128x32x64_2_1_1_2_0_0.lhsIdx (ix3 b l c) ((contrEquiv1 dot_S128x32x32_S128x32x64_S128x32x64_2_1_1_2_0_0 32 rfl rfl).symm k) = ix3 b l k := funext fun a => Fin.ext (by
    match a with
    | ⟨0, _⟩ => exact lhs_wv_0 _ _
    | ⟨1, _⟩ => exact lhs_wv_1 _ _
    | ⟨2, _⟩ => exact (lhs_wv_2 _ _).trans hk)
  have er : dot_S128x32x32_S128x32x64_S128x32x64_2_1_1_2_0_0.rhsIdx (ix3 b l c) ((contrEquiv1 dot_S128x32x32_S128x32x64_S128x32x64_2_1_1_2_0_0 32 rfl rfl).symm k) = ix3 b k c := funext fun a => Fin.ext (by
    match a with
    | ⟨0, _⟩ => exact rhs_wv_0 _ _
    | ⟨1, _⟩ => exact (rhs_wv_1 _ _).trans hk
    | ⟨2, _⟩ => exact rhs_wv_2 _ _)
  rw [el, er]

/-! ## A row statistic spread back over the keys -/

/-- A [128, 32] vector viewed as a [128, 32, 1] column and broadcast along the keys reads, at (b, l, m), its entry (b, l). -/
theorem spread_apply (v : FVec Ideal S128x32 .f32) (b : Fin 128) (l m : Fin 32) :
    broadcastTo S128x32x32 (shapeCast S128x32x1 v shapeCasts_S128x32_S128x32x1) broadcasts_S128x32x1_S128x32x32 (ix3 b l m)
      = v (ix2 b l) := by
  refine (broadcastTo_apply _ broadcasts_S128x32x1_S128x32x32 (ix3 b l m) (ix3 b l (⟨0, Nat.one_pos⟩ : Fin 1)) (fun a => match a with
    | ⟨0, _⟩ => by show b.val = if (128 : Nat) = 1 then 0 else b.val; rw [if_neg (by decide)]
    | ⟨1, _⟩ => by show l.val = if (32 : Nat) = 1 then 0 else l.val; rw [if_neg (by decide)]
    | ⟨2, _⟩ => by show 0 = if (1 : Nat) = 1 then 0 else m.val; rw [if_pos rfl])).trans ?_
  refine shapeCast_apply v shapeCasts_S128x32_S128x32x1 (ix3 b l (⟨0, Nat.one_pos⟩ : Fin 1)) (ix2 b l) ?_
  rw [Shape.rowMajor_val_two, Shape.rowMajor_val_three]
  show b.val * 32 + l.val = (b.val * 32 + l.val) * 1 + 0
  omega

/-- The index a reduction over the keys reads at key `m` of row (b, l). -/
theorem lift_eq (b : Fin 128) (l m : Fin 32) : reduces_S128x32x32_S128x32.lift (ix2 b l) m = ix3 b l m :=
  funext fun a => Fin.ext (by match a with | ⟨0, _⟩ => rfl | ⟨1, _⟩ => rfl | ⟨2, _⟩ => rfl)

/-- The vector exponential at an index is the exponential of the entry. -/
theorem exp_apply {s : Shape} (v : FVec Ideal s .f32) (i : s.Idx) : exp v i = Ideal.exp (v i) := rfl

/-! ## The stages at an index -/

theorem scores_apply (x0 x1 : Vec Ideal S128x32x64 .f32) (b : Fin 128) (l m : Fin 32) :
    scores x0 x1 (ix3 b l m) = score (batchOf x0 b) (batchOf x1 b) l m := by
  unfold scores score
  rw [mulf_apply, qk_apply, shapeCast_self, shapeCast_self]
  rfl

theorem rowMaxes_apply (x0 x1 : Vec Ideal S128x32x64 .f32) (b : Fin 128) (l : Fin 32) :
    rowMaxes x0 x1 (ix2 b l) = rowMax (batchOf x0 b) (batchOf x1 b) l := by
  unfold rowMaxes rowMax
  rw [maximumf_apply]
  refine congrArg₂ max rfl ?_
  refine (Ideal.multiReduction_maximumf_single (scores x0 x1) 0xFF800000#32 reduces_S128x32x32_S128x32 _ _ (ix2 b l)).trans ?_
  have e : (scores x0 x1 ∘ reduces_S128x32x32_S128x32.lift (ix2 b l)) = fun m : Fin 32 => score (batchOf x0 b) (batchOf x1 b) l m :=
    funext fun m => (congrArg (scores x0 x1) (lift_eq b l m)).trans (scores_apply x0 x1 b l m)
  rw [e]
  rfl

theorem expos_apply (x0 x1 : Vec Ideal S128x32x64 .f32) (b : Fin 128) (l m : Fin 32) :
    expos x0 x1 (ix3 b l m) = expo (batchOf x0 b) (batchOf x1 b) l m := by
  unfold expos expo
  rw [exp_apply, subf_apply, spread_apply, scores_apply, rowMaxes_apply]

theorem rowSums_apply (x0 x1 : Vec Ideal S128x32x64 .f32) (b : Fin 128) (l : Fin 32) :
    rowSums x0 x1 (ix2 b l) = denom (batchOf x0 b) (batchOf x1 b) l := by
  unfold rowSums denom
  refine (Ideal.multiReduction_add_single (expos x0 x1) 0x00000000#32 reduces_S128x32x32_S128x32 _ _ (ix2 b l)).trans ?_
  exact Finset.sum_congr rfl fun m _ => (congrArg (expos x0 x1) (lift_eq b l m)).trans (expos_apply x0 x1 b l m)

theorem weights_apply (x0 x1 : Vec Ideal S128x32x64 .f32) (b : Fin 128) (l m : Fin 32) :
    weights x0 x1 (ix3 b l m) = weight (batchOf x0 b) (batchOf x1 b) l m := by
  unfold weights weight
  rw [truncf_apply, divf_apply, spread_apply, expos_apply, rowSums_apply]

/-- The body's stored value at block index (b, l, c) is the attention output of batch `b` of the three blocks. -/
theorem pay_apply (x0 x1 x2 : Vec Ideal S128x32x64 .f32) (b : Fin 128) (l : Fin 32) (c : Fin 64) :
    k0_pay1 (F := Ideal) x0 x1 x2 (ix3 b l c) = attnAt (batchOf x0 b) (batchOf x1 b) (batchOf x2 b) l c := by
  rw [pay_eq, wv_apply, shapeCast_self]
  unfold attnAt
  exact Finset.sum_congr rfl fun m _ => by rw [weights_apply]; rfl

/-- So the stored block is the attention of the three blocks, as 128-batch arrays. -/
theorem pay_eq_attn (x0 x1 x2 : Vec Ideal S128x32x64 .f32) :
    k0_pay1 (F := Ideal) x0 x1 x2 = attn (B := 128) x0 x1 x2 := by
  funext j
  obtain ⟨b, l, c, rfl⟩ : ∃ (b : Fin 128) (l : Fin 32) (c : Fin 64), j = ix3 b l c := ⟨j 0, j 1, j 2, eq_ix3 j⟩
  exact pay_apply x0 x1 x2 b l c

/-- A block that holds batches 128·t … 128·t + 127 of three [8192, 32, 64] arrays: the body's value on it, at a block index,
    is attention over the arrays at the array index the block index stands for (same position and feature, batch
    128·t further on), because attention reads one batch only. -/
theorem pay_of_batches (Q K V : S8192x32x64.Idx → EReal) (x0 x1 x2 : Vec Ideal S128x32x64 .f32) (t : Nat)
    (h0 : ∀ (j : S128x32x64.Idx) (i : S8192x32x64.Idx), (i 0).val = t * 128 + (j 0).val → (i 1).val = (j 1).val → (i 2).val = (j 2).val → x0 j = Q i)
    (h1 : ∀ (j : S128x32x64.Idx) (i : S8192x32x64.Idx), (i 0).val = t * 128 + (j 0).val → (i 1).val = (j 1).val → (i 2).val = (j 2).val → x1 j = K i)
    (h2 : ∀ (j : S128x32x64.Idx) (i : S8192x32x64.Idx), (i 0).val = t * 128 + (j 0).val → (i 1).val = (j 1).val → (i 2).val = (j 2).val → x2 j = V i)
    (j : S128x32x64.Idx) (i : S8192x32x64.Idx)
    (e0 : (i 0).val = t * 128 + (j 0).val) (e1 : (i 1).val = (j 1).val) (e2 : (i 2).val = (j 2).val) :
    k0_pay1 (F := Ideal) x0 x1 x2 j = attn (B := 8192) Q K V i := by
  obtain ⟨b, l, f, rfl⟩ : ∃ (b : Fin 128) (l : Fin 32) (f : Fin 64), j = ix3 b l f := ⟨j 0, j 1, j 2, eq_ix3 j⟩
  obtain ⟨g, l', f', rfl⟩ : ∃ (g : Fin 8192) (l' : Fin 32) (f' : Fin 64), i = ix3 g l' f' := ⟨i 0, i 1, i 2, eq_ix3 i⟩
  obtain rfl : l' = l := Fin.ext e1
  obtain rfl : f' = f := Fin.ext e2
  rw [pay_apply, attn_apply]
  have q : batchOf (B := 128) x0 b = batchOf (B := 8192) Q g := funext fun a => funext fun d => h0 (ix3 b a d) (ix3 g a d) e0 rfl rfl
  have k : batchOf (B := 128) x1 b = batchOf (B := 8192) K g := funext fun a => funext fun d => h1 (ix3 b a d) (ix3 g a d) e0 rfl rfl
  have v : batchOf (B := 128) x2 b = batchOf (B := 8192) V g := funext fun a => funext fun d => h2 (ix3 b a d) (ix3 g a d) e0 rfl rfl
  rw [q, k, v]

end Cert.KernelIdeal.Block

end
-- ==== Proof.KernelArray.lean ====
/-
  The kernel's result array, as one function of the arguments.

  The region's grid has 64 points; at point `t` each of the four windows is the block of batches
  128·t … 128·t + 127 of its [8192, 32, 64] array, whole on the other two axes. The body's value on the three input
  blocks is attention over those 128 batches (Proof/KernelBlock.lean), and attention never mixes batches, so what point
  `t` writes back is block `t` of attention over the three whole arrays. The 64 blocks tile the output array, so after
  the run it holds attention of the three inputs as the region finds them — each the host's transpose and reshape of an
  argument — and the two host operations after the region reshape and transpose it back.
-/
import proofs.«119804_j42975442764618_1_alg».proof.Proof.Gen.KernelIdeal.Frame
import proofs.«119804_j42975442764618_1_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.AxialAttn

variable (m : (ℓ : Loc nD τ sig) → Buf (Elt Ideal) ℓ) (ρ : Dev nD → PrngReg)

theorem hz : (![0, 0, 0] : Fin 3 → Nat) = fun _ => 0 := funext fun a => by fin_cases a <;> rfl

/-! ## The arrays and the blocks, at their literal types -/

/-- The flattened queries, keys and values as the region finds them. -/
abbrev Qarr (c : Dev nD) : S8192x32x64.Idx → EReal := V m c main_v3
abbrev Karr (c : Dev nD) : S8192x32x64.Idx → EReal := V m c main_v4
abbrev Varr (c : Dev nD) : S8192x32x64.Idx → EReal := V m c main_v5

/-- Their blocks at point `t`. -/
abbrev qblk (c : Dev nD) (t : Fin cfg0.N) : Vec Ideal S128x32x64 .f32 := iblk m c 0 t
abbrev kblk (c : Dev nD) (t : Fin cfg0.N) : Vec Ideal S128x32x64 .f32 := iblk m c 1 t
abbrev vblk (c : Dev nD) (t : Fin cfg0.N) : Vec Ideal S128x32x64 .f32 := iblk m c 2 t

/-- The kernel's output array after the run. -/
abbrev core (c : Dev nD) : S8192x32x64.Idx → EReal := attn (B := 8192) (Qarr m c) (Karr m c) (Varr m c)

/-! ## The index maps, decided over the grid -/

/-- Every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## Each input block is 128 consecutive batches of its array -/

theorem qblk_at (c : Dev nD) (t : Fin cfg0.N) (j : S128x32x64.Idx) (i : S8192x32x64.Idx)
    (e0 : (i 0).val = t.val * 128 + (j 0).val) (e1 : (i 1).val = (j 1).val) (e2 : (i 2).val = (j 2).val) :
    qblk m c t j = Qarr m c i := by
  obtain ⟨h0, h1, h2, -⟩ := idx_facts t
  unfold qblk iblk
  rw [View.read_apply]
  show V m c main_v3 _ = V m c main_v3 _
  congr 1
  funext a
  apply Fin.ext
  match a with
  | ⟨0, _⟩ => show win0_0.index t (0 : Fin 3) * 128 + 1 * (j 0).val = (i 0).val; rw [h0, e0]; omega
  | ⟨1, _⟩ => show win0_0.index t (1 : Fin 3) * 32 + 1 * (j 1).val = (i 1).val; rw [h1, e1]; omega
  | ⟨2, _⟩ => show win0_0.index t (2 : Fin 3) * 64 + 1 * (j 2).val = (i 2).val; rw [h2, e2]; omega

theorem kblk_at (c : Dev nD) (t : Fin cfg0.N) (j : S128x32x64.Idx) (i : S8192x32x64.Idx)
    (e0 : (i 0).val = t.val * 128 + (j 0).val) (e1 : (i 1).val = (j 1).val) (e2 : (i 2).val = (j 2).val) :
    kblk m c t j = Karr m c i := by
  obtain ⟨-, -, -, h0, h1, h2, -⟩ := idx_facts t
  unfold kblk iblk
  rw [View.read_apply]
  show V m c main_v4 _ = V m c main_v4 _
  congr 1
  funext a
  apply Fin.ext
  match a with
  | ⟨0, _⟩ => show win0_1.index t (0 : Fin 3) * 128 + 1 * (j 0).val = (i 0).val; rw [h0, e0]; omega
  | ⟨1, _⟩ => show win0_1.index t (1 : Fin 3) * 32 + 1 * (j 1).val = (i 1).val; rw [h1, e1]; omega
  | ⟨2, _⟩ => show win0_1.index t (2 : Fin 3) * 64 + 1 * (j 2).val = (i 2).val; rw [h2, e2]; omega

theorem vblk_at (c : Dev nD) (t : Fin cfg0.N) (j : S128x32x64.Idx) (i : S8192x32x64.Idx)
    (e0 : (i 0).val = t.val * 128 + (j 0).val) (e1 : (i 1).val = (j 1).val) (e2 : (i 2).val = (j 2).val) :
    vblk m c t j = Varr m c i := by
  obtain ⟨-, -, -, -, -, -, h0, h1, h2, -⟩ := idx_facts t
  unfold vblk iblk
  rw [View.read_apply]
  show V m c main_v5 _ = V m c main_v5 _
  congr 1
  funext a
  apply Fin.ext
  match a with
  | ⟨0, _⟩ => show win0_2.index t (0 : Fin 3) * 128 + 1 * (j 0).val = (i 0).val; rw [h0, e0]; omega
  | ⟨1, _⟩ => show win0_2.index t (1 : Fin 3) * 32 + 1 * (j 1).val = (i 1).val; rw [h1, e1]; omega
  | ⟨2, _⟩ => show win0_2.index t (2 : Fin 3) * 64 + 1 * (j 2).val = (i 2).val; rw [h2, e2]; omega

/-- Where the output window's block at point `t` puts its entry `j`: the same position and feature, batch 128·t further on. -/
theorem out_emb (t : Fin cfg0.N) (j : S128x32x64.Idx) :
    ((((cfg0.win 3).blk t).view.emb j : S8192x32x64.Idx) 0).val = t.val * 128 + (j 0).val
    ∧ ((((cfg0.win 3).blk t).view.emb j : S8192x32x64.Idx) 1).val = (j 1).val
    ∧ ((((cfg0.win 3).blk t).view.emb j : S8192x32x64.Idx) 2).val = (j 2).val := by
  obtain ⟨-, -, -, -, -, -, -, -, -, h0, h1, h2⟩ := idx_facts t
  refine ⟨?_, ?_, ?_⟩
  · show win0_3.index t (0 : Fin 3) * 128 + 1 * (j 0).val = _; rw [h0]; omega
  · show win0_3.index t (1 : Fin 3) * 32 + 1 * (j 1).val = _; rw [h1]; omega
  · show win0_3.index t (2 : Fin 3) * 64 + 1 * (j 2).val = _; rw [h2]; omega

/-! ## What a point writes back, and the array after the run -/

/-- Point `t` writes back block `t` of attention over the three whole arrays. -/
theorem flushed_eq (c : Dev nD) (t : Fin cfg0.N) :
    (dats m 0 c).flushed 3 t = ((cfg0.win 3).blk t).view.read (Elt Ideal) (core m c) := by
  show (cfg0.win 3).cut (grid0.coords t) ((dats m 0 c).after 3 t) = _
  rw [after0_3]
  unfold out0_3
  rw [View.canon_unit_zero hz]
  simp only [View.ld_unit_zero (S := S128x32x64) hz]
  funext j
  obtain ⟨e0, e1, e2⟩ := out_emb t j
  exact Block.pay_of_batches (Qarr m c) (Karr m c) (Varr m c) (qblk m c t) (kblk m c t) (vblk m c t) t.val
    (qblk_at m c t) (kblk_at m c t) (vblk_at m c t) j (((cfg0.win 3).blk t).view.emb j) e0 e1 e2

/-- An index of the output array is in point `t`'s block iff each coordinate is in the block's range on its axis. -/
theorem mem_blk (t : Fin cfg0.N) (i : S8192x32x64.Idx) :
    i ∈ ((cfg0.win 3).blk t).view.set ↔ ∀ a : Fin 3, win0_3.index t a * S128x32x64.size a ≤ (i a).val ∧ (i a).val < win0_3.index t a * S128x32x64.size a + S128x32x64.size a := by
  show i ∈ ((View.whole main_v6).slice (win0_3.rect t)).set ↔ _
  rw [View.set_slice_whole, Rect.mem_set_unit]
  exact Iff.rfl

/-- The blocks tile the array: batch `g` lies in the block of point `g / 128`. -/
theorem cover (i : S8192x32x64.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 32 := (i 1).isLt
  have hi2 : (i 2).val < 64 := (i 2).isLt
  have ht : (i 0).val / 128 < cfg0.N := by rw [hN]; omega
  obtain ⟨-, -, -, -, -, -, -, -, -, h0, h1, h2⟩ := idx_facts ⟨(i 0).val / 128, ht⟩
  refine ⟨⟨(i 0).val / 128, ht⟩, flush0_3 _, ?_⟩
  rw [mem_blk]
  intro a
  match a with
  | ⟨0, _⟩ =>
    show win0_3.index ⟨(i 0).val / 128, ht⟩ (0 : Fin 3) * 128 ≤ (i 0).val ∧ (i 0).val < win0_3.index ⟨(i 0).val / 128, ht⟩ (0 : Fin 3) * 128 + 128
    rw [h0]; show (i 0).val / 128 * 128 ≤ (i 0).val ∧ (i 0).val < (i 0).val / 128 * 128 + 128; omega
  | ⟨1, _⟩ =>
    show win0_3.index ⟨(i 0).val / 128, ht⟩ (1 : Fin 3) * 32 ≤ (i 1).val ∧ (i 1).val < win0_3.index ⟨(i 0).val / 128, ht⟩ (1 : Fin 3) * 32 + 32
    rw [h1]; omega
  | ⟨2, _⟩ =>
    show win0_3.index ⟨(i 0).val / 128, ht⟩ (2 : Fin 3) * 64 ≤ (i 2).val ∧ (i 2).val < win0_3.index ⟨(i 0).val / 128, ht⟩ (2 : Fin 3) * 64 + 64
    rw [h2]; omega

/-- After the run the output array holds attention over the three arrays as the region finds them. -/
theorem final (c : Dev nD) : (dats m 0 c).arrAt 3 cfg0.N = core m c :=
  (dats m 0 c).arrAt_eq_of_cover 3 (core m c) (fun t _ => flushed_eq m c t) (fun i => cover i)

/-! ## The host operations before and after the region -/

/-- An argument moved to the layout the region reads: the attended axis next to the features, the rest one batch axis. -/
abbrev flat (x : S2x8x16x32x32x64.Idx → EReal) : S8192x32x64.Idx → EReal :=
  shapeCast S8192x32x64 (transpose S2x8x16x32x32x64 [0, 1, 2, 4, 3, 5] x transposes_S2x8x16x32x32x64_S2x8x16x32x32x64_0_1_2_4_3_5) shapeCasts_S2x8x16x32x32x64_S8192x32x64

theorem Qarr_eq (c : Dev nD) : Qarr m c = flat (m ((c : Thread nD τ).loc main_arg0)) := by
  show StableHlo.after hostOps0 (fun b => m (c, b)) (Proc.devRef .tc main_v3) = _
  after_results
  rfl
theorem Karr_eq (c : Dev nD) : Karr m c = flat (m ((c : Thread nD τ).loc main_arg1)) := by
  show StableHlo.after hostOps0 (fun b => m (c, b)) (Proc.devRef .tc main_v4) = _
  after_results
  rfl
theorem Varr_eq (c : Dev nD) : Varr m c = flat (m ((c : Thread nD τ).loc main_arg2)) := by
  show StableHlo.after hostOps0 (fun b => m (c, b)) (Proc.devRef .tc main_v5) = _
  after_results
  rfl

/-- The kernel's result, as a function of the arguments. -/
def result (c : Dev nD) : S2x8x16x32x32x64.Idx → EReal :=
  transpose S2x8x16x32x32x64 [0, 1, 2, 4, 3, 5]
    (shapeCast S2x8x16x32x32x64
      (attn (B := 8192) (flat (m ((c : Thread nD τ).loc main_arg0))) (flat (m ((c : Thread nD τ).loc main_arg1)))
        (flat (m ((c : Thread nD τ).loc main_arg2))))
      shapeCasts_S8192x32x64_S2x8x16x32x32x64)
    transposes_S2x8x16x32x32x64_S2x8x16x32x32x64_0_1_2_4_3_5

/-- The host operations after the region leave the result buffer at `result`. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  rw [(Pipeline.withArrays_arr spec0 launch0.win.arr_inj c _ _ 3).trans (final m c)]
  unfold result core
  rw [Qarr_eq, Karr_eq, Varr_eq]
  rfl

/-! ## The run, read -/

theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.Reference.lean ====
/-
  What the reference computes, read at an index.

  Between its leading transposes and reshapes and its closing reshape and transpose, the reference is attention over the
  three [8192, 32, 64] arrays, written with whole-array host operations: a batched `dot_general` over the features,
  the scale `1 / √64` computed on the host and broadcast, a max-reduce over the keys from -∞ (and once more against
  -∞), the exponential of the difference, an add-reduce from 0, the quotient, and a batched `dot_general` over the keys.
  Read at (b, l, c) that is the attention formula of batch `b` (`Cert.AxialAttn.attnAt`): the generated read-at-an-index
  lemmas give each stage from its operands, the host's `1 / √64` is the word of 0.125 (`Cert.AxialAttn.scale_eq`), the
  max-reduce over one axis is the fold of `max` over the keys, and the sum from 0 is the sum.
-/
import proofs.«119804_j42975442764618_1_alg».proof.Proof.Gen.ReferenceIdeal.Read
import proofs.«119804_j42975442764618_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx Cert.AxialAttn

variable (x0 x1 x2 : (⟨S2x8x16x32x32x64, .f32⟩ : BufTy).Contents (Elt Ideal))

/-! ## The index maps of the stages, by coordinates -/

theorem lidx_scores (b : Fin 8192) (l m : Fin 32) (k : Fin 64) : lidx_main_v8 (ix3 b l m) k = ix3 b l k :=
  funext fun a => Fin.ext (by match a with | ⟨0, _⟩ => rfl | ⟨1, _⟩ => rfl | ⟨2, _⟩ => rfl)
theorem ridx_scores (b : Fin 8192) (l m : Fin 32) (k : Fin 64) : ridx_main_v8 (ix3 b l m) k = ix3 b m k :=
  funext fun a => Fin.ext (by match a with | ⟨0, _⟩ => rfl | ⟨1, _⟩ => rfl | ⟨2, _⟩ => rfl)
theorem idx_rowMax (b : Fin 8192) (l m : Fin 32) : idx_main_v14 (idx_main_v15 (ix3 b l m)) = ix2 b l :=
  funext fun a => Fin.ext (by match a with | ⟨0, _⟩ => rfl | ⟨1, _⟩ => rfl)
theorem idx_rowSum (b : Fin 8192) (l m : Fin 32) : idx_main_v19 (idx_main_v20 (ix3 b l m)) = ix2 b l :=
  funext fun a => Fin.ext (by match a with | ⟨0, _⟩ => rfl | ⟨1, _⟩ => rfl)
theorem idx_sum (b : Fin 8192) (l m : Fin 32) : idx_main_v18 (ix2 b l) m = ix3 b l m :=
  funext fun a => Fin.ext (by match a with | ⟨0, _⟩ => rfl | ⟨1, _⟩ => rfl | ⟨2, _⟩ => rfl)
theorem lidx_out (b : Fin 8192) (l : Fin 32) (c : Fin 64) (k : Fin 32) : lidx_main_v22 (ix3 b l c) k = ix3 b l k :=
  funext fun a => Fin.ext (by match a with | ⟨0, _⟩ => rfl | ⟨1, _⟩ => rfl | ⟨2, _⟩ => rfl)
theorem ridx_out (b : Fin 8192) (l : Fin 32) (c : Fin 64) (k : Fin 32) : ridx_main_v22 (ix3 b l c) k = ix3 b k c :=
  funext fun a => Fin.ext (by match a with | ⟨0, _⟩ => rfl | ⟨1, _⟩ => rfl | ⟨2, _⟩ => rfl)

/-- The max-reduce's shape relation, in the form that names the reduced index with a key inserted. -/
theorem reduces_keys : S8192x32x32.Reduces [2] S8192x32 := by decide

theorem lift_eq (b : Fin 8192) (l m : Fin 32) : reduces_keys.lift (ix2 b l) m = ix3 b l m :=
  funext fun a => Fin.ext (by match a with | ⟨0, _⟩ => rfl | ⟨1, _⟩ => rfl | ⟨2, _⟩ => rfl)

/-! ## The stages at an index -/

/-- The broadcast scale `1 / √64` is the word of 0.125 everywhere. -/
theorem scale_apply (i : S8192x32x32.Idx) : val_main_v9 (F := Ideal) i = scale := by
  rw [val_main_v9_apply, val_main_v7_apply, val_main_cst_0_apply, val_main_v6_apply, val_main_cst_apply]
  exact scale_eq

theorem scores_apply (b : Fin 8192) (l m : Fin 32) :
    val_main_v10 (F := Ideal) x0 x1 (ix3 b l m)
      = score (batchOf (B := 8192) (val_main_v3 (F := Ideal) x0) b) (batchOf (B := 8192) (val_main_v4 (F := Ideal) x1) b) l m := by
  rw [val_main_v10_apply, val_main_v8_apply, scale_apply]
  unfold score
  refine congrArg (· * scale) (Finset.sum_congr rfl fun k _ => ?_)
  rw [lidx_scores, ridx_scores]
  rfl

theorem rowMax_apply (b : Fin 8192) (l : Fin 32) :
    val_main_v13 (F := Ideal) x0 x1 (ix2 b l)
      = rowMax (batchOf (B := 8192) (val_main_v3 (F := Ideal) x0) b) (batchOf (B := 8192) (val_main_v4 (F := Ideal) x1) b) l := by
  rw [val_main_v13_apply, val_main_v12_apply, val_main_cst_2_apply]
  unfold val_main_v11 rowMax
  rw [Host.reduce_eq_fold_single FloatOps.maximumf _ _ reducesTo_S8192x32x32_S8192x32_d2 reduces_keys h_S_]
  have e : (val_main_v10 (F := Ideal) x0 x1 ∘ reduces_keys.lift (ix2 b l))
      = fun m : Fin 32 => score (batchOf (B := 8192) (val_main_v3 (F := Ideal) x0) b) (batchOf (B := 8192) (val_main_v4 (F := Ideal) x1) b) l m :=
    funext fun m => (congrArg (val_main_v10 (F := Ideal) x0 x1) (lift_eq b l m)).trans (scores_apply x0 x1 b l m)
  rw [e]
  rfl

theorem expo_apply (b : Fin 8192) (l m : Fin 32) :
    val_main_v17 (F := Ideal) x0 x1 (ix3 b l m)
      = expo (batchOf (B := 8192) (val_main_v3 (F := Ideal) x0) b) (batchOf (B := 8192) (val_main_v4 (F := Ideal) x1) b) l m := by
  rw [val_main_v17_apply, val_main_v16_apply, val_main_v15_apply, val_main_v14_apply, idx_rowMax, rowMax_apply, scores_apply]
  rfl

theorem denom_apply (b : Fin 8192) (l : Fin 32) :
    val_main_v18 (F := Ideal) x0 x1 (ix2 b l)
      = denom (batchOf (B := 8192) (val_main_v3 (F := Ideal) x0) b) (batchOf (B := 8192) (val_main_v4 (F := Ideal) x1) b) l := by
  rw [val_main_v18_apply, val_main_cst_3_apply]
  unfold denom
  rw [Ideal.ofBits_def, Ideal.ofBits_zero_f32, zero_add]
  exact Finset.sum_congr rfl fun m _ => by rw [idx_sum, expo_apply]

theorem weight_apply (b : Fin 8192) (l m : Fin 32) :
    val_main_v21 (F := Ideal) x0 x1 (ix3 b l m)
      = weight (batchOf (B := 8192) (val_main_v3 (F := Ideal) x0) b) (batchOf (B := 8192) (val_main_v4 (F := Ideal) x1) b) l m := by
  rw [val_main_v21_apply, val_main_v20_apply, val_main_v19_apply, idx_rowSum, expo_apply, denom_apply]
  rfl

/-- The second product at (b, l, c) is the attention output of batch `b`. -/
theorem out_apply (b : Fin 8192) (l : Fin 32) (c : Fin 64) :
    val_main_v22 (F := Ideal) x0 x1 x2 (ix3 b l c)
      = attnAt (batchOf (B := 8192) (val_main_v3 (F := Ideal) x0) b) (batchOf (B := 8192) (val_main_v4 (F := Ideal) x1) b)
          (batchOf (B := 8192) (val_main_v5 (F := Ideal) x2) b) l c := by
  rw [val_main_v22_apply]
  unfold attnAt
  exact Finset.sum_congr rfl fun m _ => by rw [lidx_out, ridx_out, weight_apply]; rfl

/-- The reference's core is attention over its three flattened arrays. -/
theorem core_eq :
    val_main_v22 (F := Ideal) x0 x1 x2
      = attn (B := 8192) (val_main_v3 (F := Ideal) x0) (val_main_v4 (F := Ideal) x1) (val_main_v5 (F := Ideal) x2) := by
  funext j
  obtain ⟨b, l, c, rfl⟩ : ∃ (b : Fin 8192) (l : Fin 32) (c : Fin 64), j = ix3 b l c := ⟨j 0, j 1, j 2, eq_ix3 j⟩
  exact out_apply x0 x1 x2 b l c

/-- The reference's result: the core, reshaped and transposed back. -/
theorem result_eq :
    val_main_v24 (F := Ideal) x0 x1 x2
      = transpose S2x8x16x32x32x64 [0, 1, 2, 4, 3, 5]
          (shapeCast S2x8x16x32x32x64
            (attn (B := 8192) (val_main_v3 (F := Ideal) x0) (val_main_v4 (F := Ideal) x1) (val_main_v5 (F := Ideal) x2))
            shapeCasts_S8192x32x64_S2x8x16x32x32x64)
          transposes_S2x8x16x32x32x64_S2x8x16x32x32x64_0_1_2_4_3_5 := by
  unfold val_main_v24 val_main_v23
  rw [core_eq]

end Cert.ReferenceIdeal.RefValue

end
-- ==== Proof.lean ====
/-
  Axial attention over the H axis of [2, 8, 16, 32, 32, 64] arrays: a Pallas kernel against its jnp reference, equal over
  the extended reals.

  Both programs move the attended axis next to the feature axis and fold the other four axes into one batch axis of
  8192, compute scaled dot-product attention independently in every batch (scores q·kᵀ/8, a softmax over the keys taken
  as exp(s - max s) / Σ exp(s - max s), then the weighted sum of the values), and undo the reshape and the transpose.
  The kernel does it 128 batches at a time over a grid of 64 points, with bf16 operands into its two matrix products
  and the scale as the literal 0.125; the reference does it on whole arrays, with the scale computed as 1 / √64.

  At the ideal instance the narrowing to bf16 is the identity, a matrix product into a zero accumulator and the host's
  dot_general are the same sum, the lane reductions and the host's reduces are the same fold and the same sum, and
  1 / √64 is exactly 1/8. So both are one function of the arguments, `Cert.KernelIdeal.Whole.result`:
  Proof/Spec.lean states attention of one batch, Proof/KernelBlock.lean reads the kernel body's value on a block as that
  function, Proof/KernelArray.lean carries it from the blocks to the result array through the host operations around the
  region, and Proof/Reference.lean reads the reference's operations as the same function. No law used needs the
  inputs finite, so the precondition is never opened. The ideal pass rewrote nothing, so there is nothing to preserve.
-/
import proofs.«119804_j42975442764618_1_alg».proof.Defs
import proofs.«119804_j42975442764618_1_alg».proof.Proof.Gen.Kernel
import proofs.«119804_j42975442764618_1_alg».proof.Proof.Gen.Kernel.Skeleton
import proofs.«119804_j42975442764618_1_alg».proof.Proof.Gen.Kernel.Launch
import proofs.«119804_j42975442764618_1_alg».proof.Proof.Gen.Kernel.Points
import proofs.«119804_j42975442764618_1_alg».proof.Proof.Gen.Kernel.Frame
import proofs.«119804_j42975442764618_1_alg».proof.Proof.Gen.KernelIdeal
import proofs.«119804_j42975442764618_1_alg».proof.Proof.Gen.KernelIdeal.Skeleton
import proofs.«119804_j42975442764618_1_alg».proof.Proof.Gen.KernelIdeal.Launch
import proofs.«119804_j42975442764618_1_alg».proof.Proof.Gen.KernelIdeal.Points
import proofs.«119804_j42975442764618_1_alg».proof.Proof.Gen.KernelIdeal.Frame
import proofs.«119804_j42975442764618_1_alg».proof.Proof.Gen.ReferenceIdeal
import proofs.«119804_j42975442764618_1_alg».proof.Proof.Gen.ReferenceIdeal.Run
import proofs.«119804_j42975442764618_1_alg».proof.Proof.Gen.ReferenceIdeal.Read
import proofs.«119804_j42975442764618_1_alg».proof.Proof.Gen.Pre_finite_inputs
import proofs.«119804_j42975442764618_1_alg».proof.Proof.KernelArray
import proofs.«119804_j42975442764618_1_alg».proof.Proof.Reference
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result buffer at attention of the flattened arguments, reshaped and transposed
    back: the kernel by its blocks (Proof/KernelArray.lean), the reference operation by operation (Proof/Reference.lean). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq _ _ _).trans ?_
  rw [Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
